-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192x8192 32) (main_arg1 : FVec F S8192 .f32) : IVec S_ 1 :=
  let main_v0 : FVec F S8192 .f32 := Host.absf main_arg1
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1024x1024 : Shape := ⟨2, ![1024, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x8192, .i32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S8192x8192, .f32⟩
  | .local _ .vmem, ⟨0, _⟩ => ⟨S1024x1024, .i32⟩
  | .local _ .vmem, ⟨1, _⟩ => ⟨S1024x1024, .i32⟩
  | .local _ .vmem, ⟨2, _⟩ => ⟨S1024x1, .f32⟩
  | .local _ .vmem, ⟨3, _⟩ => ⟨S1024x1, .f32⟩
  | .local _ .vmem, ⟨4, _⟩ => ⟨S1024x1024, .f32⟩
  | .local _ .vmem, ⟨5, _⟩ => ⟨S1024x1024, .f32⟩
  | _, _ => ⟨S8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192 : S_.BroadcastsInDim S8192 (![] : Fin 0 → Fin S8192.rank)
  shapeCasts_S8192_S8192x1 : S8192.ShapeCasts S8192x1
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .i32 = 32 ∨ (Rect.block (s := S8192x8192) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .i32⟩
  | .hbm, ⟨1, _⟩ => ⟨S8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192x1, .f32⟩
  | .hbm, ⟨7, _⟩ => ⟨S8192x8192, .f32⟩
  | .hbm, ⟨8, _⟩ => ⟨S8192x8192, .f32⟩
  | _, _ => ⟨S8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowScale.lean ====
/-
  Row-wise dequantisation of an integer matrix, as ONE function of the two argument arrays.

  For a matrix `q` of 32-bit integers with 8192 rows and 8192 columns and a vector `s` of 8192 row statistics, the
  entry at row `r`, column `k` of the result is

      float(q[r, k]) · (s[r] · κ),

  where `κ` is the single-precision word `0x3C010204` (the float nearest 1/127). Both programs multiply by the SAME word,
  in the same grouping, so the word is never evaluated and no law of arithmetic is needed to join the two sides: the
  function is written once, over any float family, with the family's own convert, product and literal.
-/
import Idealize.ShloMosaic.PureOps
import Idealize.ShloMosaic.Lib.ValueIdx

noncomputable section

namespace Cert.RowScale

open Idealize.ShloMosaic Idealize.ShloMosaic.ValueIdx

variable {F : FTy → Type} [FloatOps F]

/-- The shape of the matrix and of the result. -/
abbrev Mat : Shape := ⟨2, ![8192, 8192]⟩
/-- The shape of the row statistics. -/
abbrev Rows : Shape := ⟨1, ![8192]⟩

/-- A row's scale: its statistic times the literal `κ`. -/
def scale (s : Rows.Idx → F .f32) (r : Fin 8192) : F .f32 :=
  FloatOps.mulf (s (ix1 r)) (FloatOps.ofBits .f32 0x3C010204#32)

/-- The dequantised matrix: each integer entry converted, times its row's scale. -/
def dequant (q : Mat.Idx → BitVec 32) (s : Rows.Idx → F .f32) : Mat.Idx → F .f32 :=
  fun i => FloatOps.mulf (FloatOps.sitofp .f32 (q i)) (scale s (i 0))

theorem dequant_apply (q : Mat.Idx → BitVec 32) (s : Rows.Idx → F .f32) (i : Mat.Idx) :
    dequant q s i = FloatOps.mulf (FloatOps.sitofp .f32 (q i)) (FloatOps.mulf (s (ix1 (i 0))) (FloatOps.ofBits .f32 0x3C010204#32)) := rfl

end Cert.RowScale

end
-- ==== Proof.RefDequant.lean ====
/-
  The reference computes `dequant`.

  Its last stage is the product of the converted matrix with the row scales broadcast along the columns; the scales are
  the row statistics times the broadcast literal, first laid out as a column and then broadcast to the matrix. Read at
  an entry (r, k), the two broadcasts both land on row `r` of the statistics, and the scalar broadcast on the literal: that
  is `dequant` at (r, k), term for term.
-/
import proofs.«138159_j85203561218574_1_alg».proof.Proof.Gen.ReferenceIdeal.Read
import proofs.«138159_j85203561218574_1_alg».proof.Proof.RowScale

noncomputable section

namespace Cert.ReferenceIdeal.RefDequant

open Cert.ReferenceIdeal Cert.ReferenceIdeal.Gen Cert.ReferenceIdeal.Read
open Idealize.ShloMosaic Idealize.ShloMosaic.ValueIdx Cert.RowScale

variable {F : FTy → Type} [FloatOps F]

/-- The two broadcasts of the scales, composed, read entry (r, k) of the matrix at row `r` of the statistics. -/
theorem row_of_entry (i : S8192x8192.Idx) : idx_main_v3 (idx_main_v4 i) = ix1 (i 0) :=
  funext fun a => match a with | ⟨0, _⟩ => rfl

/-- The reference's result stage is `dequant` of its two arguments. -/
theorem stage_eq (x0 : (⟨S8192x8192, .i32⟩ : BufTy).Contents (Elt F)) (x1 : (⟨S8192, .f32⟩ : BufTy).Contents (Elt F)) :
    val_main_v5 (F := F) x0 x1 = dequant x0 x1 := by
  funext i
  rw [val_main_v5_apply, val_main_v0_apply, val_main_v4_apply, val_main_v3_apply, val_main_v2_apply,
    val_main_v1_apply, val_main_cst_apply, row_of_entry]
  rfl

end Cert.ReferenceIdeal.RefDequant

end
-- ==== Proof.KernelDequant.lean ====
/-
  The kernel computes `dequant`.

  The 8192 × 8192 result is written in 64 blocks of 1024 × 1024, one per grid point (a, b), a, b < 8. At a point the
  body sees block (a, b) of the integer matrix and block (a, 0) of an 8192 × 1 column of scales, and stores, at entry
  (y₀, y₁) of its block, float(q_block[y₀, y₁]) · scale_block[y₀, 0].

  The column of scales is made before the grid runs: it is the row statistics times the literal `κ`, laid out as a
  column. Entry (r, 0) of the column has the same row-major position as entry r of the vector, so it is `scale s r`.

  Entry (y₀, y₁) of block (a, b) is entry (1024·a + y₀, 1024·b + y₁) of an array, and the scale block's row y₀ is row
  1024·a + y₀ of the column. Hence what point (a, b) writes back is block (a, b) of `dequant q s`. Entry (r, k) of the
  result lies in the block of the point with indices (r / 1024, k / 1024), so the blocks cover the array and the array
  ends holding `dequant q s`.

  All of this holds over any float family: nothing is computed, entries are only traced to where they came from.
-/
import proofs.«138159_j85203561218574_1_alg».proof.Proof.KernelIdealValue
import proofs.«138159_j85203561218574_1_alg».proof.Proof.RowScale
import Idealize.ShloMosaic.Lib.StableHlo.Run

set_option maxRecDepth 16384

noncomputable section

namespace Cert.KernelIdeal.Dequant

open Cert.KernelIdeal Cert.KernelIdeal.Gen Cert.KernelIdeal.ValueP
open Idealize.ShloMosaic Idealize.ShloMosaic.TcCoe Idealize.SL.Sem Idealize.ShloMosaic.ValueIdx Cert.RowScale
open Idealize.ShloMosaic.Pipeline (Dat)

variable {F : FTy → Type} [FloatOps F]
variable (m : (ℓ : Loc nD τ sig) → Buf (Elt F) ℓ) (ρ : Dev nD → PrngReg)

/-- The zero offsets of a whole-block access, however spelt. -/
theorem origin : (![0, 0] : Fin 2 → Nat) = fun _ => 0 := funext fun a => by fin_cases a <;> rfl

/-- The column of scales when the grid starts: the statistics times the broadcast literal, reshaped to a column. -/
theorem scale_column_eq (c : Dev nD) :
    (V m c main_v2 : S8192x1.Idx → F .f32) = shapeCast S8192x1 (mulf (m ((c : Thread nD τ).loc main_arg1)) (broadcastInDim S8192 ![] bcast_S_S8192 (constant (F := F) S_ .f32 0x3C010204#32))) shapeCasts_S8192_S8192x1 := by
  dsimp only [Gen.V, Gen.hostOps0]; after_results; rfl

/-- Read at an entry: entry (r, 0) of the column and entry r of the vector share their row-major position, so the
    column holds row r's scale there. -/
theorem scale_column (c : Dev nD) (k : S8192x1.Idx) :
    (V m c main_v2 : S8192x1.Idx → F .f32) k = scale (m ((c : Thread nD τ).loc main_arg1)) (k 0) := by
  rw [scale_column_eq]
  refine (shapeCast_apply _ _ k (ix1 (k 0) : S8192.Idx) ?_).trans rfl
  rw [Shape.rowMajor_val_one, Shape.rowMajor_val_two]
  have h1 : (k 1).val < 1 := (k 1).isLt
  show (k 0).val = (k 0).val * 1 + (k 1).val
  omega

/-- The generated index of the loaded matrix block under a block index is that index. -/
theorem ix2_0_eq (y : S1024x1024.Idx) : ix2_0 y = y :=
  funext fun a => match a with | ⟨0, _⟩ => rfl | ⟨1, _⟩ => rfl

/-- What the body leaves in the output block, entry by entry: the converted integer at that entry times the scale
    block's entry in the same row (the scale block has one column, broadcast along the lanes). -/
theorem block_entry (x0 : Vec F S1024x1024 .i32) (x1 : Vec F S1024x1 .f32) (y : S1024x1024.Idx) :
    out0_2 x0 x1 y = FloatOps.mulf (FloatOps.sitofp .f32 (x0 y)) (x1 (ix2_1 y)) := by
  unfold out0_2
  rw [canon2_eq, View.ld_unit_zero (S := S1024x1024) origin, View.ld_unit_zero (S := S1024x1) origin]
  show FloatOps.mulf (FloatOps.sitofp .f32 (x0 (ix2_0 y))) (x1 (ix2_1 y)) = _
  rw [ix2_0_eq]

/-- The printed index maps over the 64 grid points: the matrix block moves with the output block, the scale block
    with its row of blocks in the one column there is, and block indices stay below 8. -/
theorem block_index_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every pair of block indices below 8 is some grid point's. -/
theorem block_onto : ∀ (a b : Fin 8), ∃ t : Fin cfg0.N, win0_2.index t = ![a.val, b.val] :=
  (by decide +kernel : ∀ (a b : Fin 8), ∃ t : Fin grid0.N, win0_2.index t = ![a.val, b.val])

/-- What grid point `t` writes back is block `t` of `dequant` of the arguments: an entry of the matrix block is the
    matrix's entry at (block index × 1024 + position in the block) on each axis, which is where the output block's
    entry sits too; the scale block's row is the same row of the column, whose entry is that row's scale. -/
theorem flushed_eq (c : Dev nD) (t : Fin cfg0.N) :
    (dats m 0 c).flushed 2 t = ((cfg0.win 2).blk t).view.read (Elt F)
      (dequant (m ((c : Thread nD τ).loc main_arg0)) (m ((c : Thread nD τ).loc main_arg1))) := by
  rw [flushed2]
  funext j
  show out0_2 (iblk m c 0 t) (iblk m c 1 t) ((cfg0.win 2).xinj (grid0.coords t) j) = dequant _ _ (((cfg0.win 2).blk t).view.emb j)
  refine (block_entry (iblk m c 0 t) (iblk m c 1 t) _).trans ?_
  obtain ⟨e0, e1, e2, e3, -, -⟩ := block_index_facts t
  have hq : iblk m c 0 t ((cfg0.win 2).xinj (grid0.coords t) j)
      = m ((c : Thread nD τ).loc main_arg0) (((cfg0.win 2).blk t).view.emb j) := by
    show V m c main_arg0 (((cfg0.win 0).blk t).view.emb ((cfg0.win 2).xinj (grid0.coords t) j)) = _
    rw [V_main_arg0]
    refine congrArg _ (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * (j 1).val = win0_2.index t (1 : Fin 2) * 1024 + 1 * (j 1).val; omega
  have hs : iblk m c 1 t (ix2_1 ((cfg0.win 2).xinj (grid0.coords t) j))
      = scale (m ((c : Thread nD τ).loc main_arg1)) ((((cfg0.win 2).blk t).view.emb j) 0) := by
    show V m c main_v2 (((cfg0.win 1).blk t).view.emb (ix2_1 ((cfg0.win 2).xinj (grid0.coords t) j))) = _
    rw [scale_column]
    refine congrArg _ (Fin.ext ?_)
    show win0_1.index t (0 : Fin 2) * 1024 + 1 * (j 0).val = win0_2.index t (0 : Fin 2) * 1024 + 1 * (j 0).val
    omega
  rw [hq, hs]
  rfl

/-- An entry of the result lies in point `t`'s block iff each coordinate lies in the block's 1024-long range. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- The 64 blocks tile the result: entry (r, k) lies in the block of the point whose block indices are (r / 1024, k / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the result array is `dequant` of the two arguments as launched. -/
theorem final (c : Dev nD) :
    (dats m 0 c).arrAt 2 cfg0.N = dequant (m ((c : Thread nD τ).loc main_arg0)) (m ((c : Thread nD τ).loc main_arg1)) :=
  (dats m 0 c).arrAt_eq_of_cover 2 _ (fun t _ => flushed_eq m c t) covered

/-- The kernel's run, with its result named: `dequant` of the arguments, which end unchanged. -/
theorem run : θ_run defs (onTc (τ := τ) (main (F := F))) ⟨m, fun _ => 0, ρ⟩ fun r => ∀ c : Dev nD,
      r.2.mem ((c : Thread nD τ).loc main_v3) = dequant (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Dequant

end
-- ==== Proof.lean ====
/-
  Row-wise dequantisation: out[r, k] = float(q[r, k]) · (s[r] · κ), κ the single-precision word 0x3C010204.

  The kernel scales the statistics by κ on the host, lays them out as a column, and multiplies the converted integer
  matrix by that column block by block over an 8 × 8 grid; the reference converts the matrix, scales the statistics by
  the same κ and multiplies by the broadcast column. Both are the ONE function `Cert.RowScale.dequant` of the argument
  arrays (Proof/KernelDequant.lean for the kernel, Proof/RefDequant.lean for the reference), with the same word κ in
  the same place, so no arithmetic law is used and the finiteness of the statistics is never opened.

  The three runs terminate with the arguments unchanged (the generated frames; the reference's is its generated run
  with the result dropped); the idealisation rewrote nothing, so that conjunct is `True`.
-/
import proofs.«138159_j85203561218574_1_alg».proof.Defs
import proofs.«138159_j85203561218574_1_alg».proof.Proof.Gen.Kernel
import proofs.«138159_j85203561218574_1_alg».proof.Proof.Gen.Kernel.Skeleton
import proofs.«138159_j85203561218574_1_alg».proof.Proof.Gen.Kernel.Launch
import proofs.«138159_j85203561218574_1_alg».proof.Proof.Gen.Kernel.Points
import proofs.«138159_j85203561218574_1_alg».proof.Proof.Gen.Kernel.Frame
import proofs.«138159_j85203561218574_1_alg».proof.Proof.Gen.KernelIdeal
import proofs.«138159_j85203561218574_1_alg».proof.Proof.Gen.KernelIdeal.Skeleton
import proofs.«138159_j85203561218574_1_alg».proof.Proof.Gen.KernelIdeal.Launch
import proofs.«138159_j85203561218574_1_alg».proof.Proof.Gen.KernelIdeal.Points
import proofs.«138159_j85203561218574_1_alg».proof.Proof.Gen.KernelIdeal.Frame
import proofs.«138159_j85203561218574_1_alg».proof.Proof.Gen.ReferenceIdeal
import proofs.«138159_j85203561218574_1_alg».proof.Proof.Gen.Pre_finite_inputs
import proofs.«138159_j85203561218574_1_alg».proof.Proof.KernelIdealValue
import proofs.«138159_j85203561218574_1_alg».proof.Proof.Gen.ReferenceIdeal.Run
import proofs.«138159_j85203561218574_1_alg».proof.Proof.Gen.ReferenceIdeal.Read
import proofs.«138159_j85203561218574_1_alg».proof.Proof.RowScale
import proofs.«138159_j85203561218574_1_alg».proof.Proof.RefDequant
import proofs.«138159_j85203561218574_1_alg».proof.Proof.KernelDequant
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with `dequant` of arguments that agree. -/
theorem algebraic : Cert.algebraic_KernelIdeal_ReferenceIdeal := by
  intro m ρ m' ρ' _ hagree
  refine ⟨_, Cert.KernelIdeal.Dequant.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefDequant.stage_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
